-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.StepValues.lean ====
/-
  One K-step of the blocked matrix product, read as values.

  The kernel body keeps a 512×1024 accumulator block across the four K-steps of one output block. Writing
  `step a b acc` for `acc + a·b` (the body's one arithmetic expression: the two input blocks narrowed to bf16,
  multiplied into a zero accumulator, and added to what the accumulator held), the three control cases of the
  body leave:

    first K-step  (k = 0)   : the accumulator is reset to zero and then updated,  acc' = step a b 0;
    middle K-steps (k = 1,2): acc' = step a b acc;
    last K-step   (k = 3)   : acc' = step a b acc, and the output block is a copy of acc'.

  Each statement is for any float instance: nothing here uses what the arithmetic means.
-/
import proofs.«117883_j23708219474208_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StepValues

open Cert.KernelIdeal Cert.KernelIdeal.Gen

variable {F : FTy → Type} [FloatOps F]

/-- Every load and store of the body is through the whole 512×1024 (or 1024×1024) buffer: offset zero on both axes. -/
theorem origin : (![0, 0] : Fin 2 → Nat) = fun _ => 0 := funext fun a => by fin_cases a <;> rfl

/-- A middle K-step leaves `acc + a·b` in the accumulator: its single store covers the block, and its three loads
    read the two input blocks and the accumulator whole. -/
theorem acc_middle (c : Dev nD) (i : grid0.Coords) (a3 : Memref sig .tc .vmem S512x1024 .f32) (h3 : a3.IsWhole)
    (a4 : Memref sig .tc .vmem S1024x1024 .f32) (h4 : a4.IsWhole) (a5 : Memref sig .tc .vmem S512x1024 .f32) (h5 : a5.IsWhole)
    (a6 : Memref sig .tc .vmem S512x1024 .f32) (h6 : a6.IsWhole) (hc0 : ¬cond0_0 i) (hc1 : ¬cond0_1 i)
    (x0 : Vec F S512x1024 .f32) (x1 : Vec F S1024x1024 .f32) (xs0 : Vec F S512x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero origin]
  simp only [View.readAt_eq_ld, h3.read_unread, h4.read_unread, h6.read_unread,
    View.ld_unit_zero (S := S512x1024) origin, View.ld_unit_zero (S := S1024x1024) origin]

/-- The first K-step stores the zero block, reads it back, and leaves `0 + a·b`: the later of its two stores
    covers the block, and the accumulator it read is what the earlier store (the reset) left. -/
theorem acc_first (c : Dev nD) (i : grid0.Coords) (a3 : Memref sig .tc .vmem S512x1024 .f32) (h3 : a3.IsWhole)
    (a4 : Memref sig .tc .vmem S1024x1024 .f32) (h4 : a4.IsWhole) (a5 : Memref sig .tc .vmem S512x1024 .f32) (h5 : a5.IsWhole)
    (a6 : Memref sig .tc .vmem S512x1024 .f32) (h6 : a6.IsWhole) (hc0 : cond0_0 i) (hc1 : ¬cond0_1 i)
    (x0 : Vec F S512x1024 .f32) (x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) origin, View.readCov_unit_zero (S := S512x1024) _ origin]
  simp only [View.readAt_eq_ld, h3.read_unread, h4.read_unread,
    View.ld_unit_zero (S := S512x1024) origin, View.ld_unit_zero (S := S1024x1024) origin]

/-- The last K-step leaves `acc + a·b` in the accumulator, as a middle one does, -/
theorem acc_last (c : Dev nD) (i : grid0.Coords) (a3 : Memref sig .tc .vmem S512x1024 .f32) (h3 : a3.IsWhole)
    (a4 : Memref sig .tc .vmem S1024x1024 .f32) (h4 : a4.IsWhole) (a5 : Memref sig .tc .vmem S512x1024 .f32) (h5 : a5.IsWhole)
    (a6 : Memref sig .tc .vmem S512x1024 .f32) (h6 : a6.IsWhole) (hc0 : ¬cond0_0 i) (hc1 : cond0_1 i)
    (x0 : Vec F S512x1024 .f32) (x1 : Vec F S1024x1024 .f32) (xs0 : Vec F S512x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero origin]
  simp only [View.readAt_eq_ld, h3.read_unread, h4.read_unread, h6.read_unread,
    View.ld_unit_zero (S := S512x1024) origin, View.ld_unit_zero (S := S1024x1024) origin]

/-- and the output block it stores is that same value: the accumulator read back after the update. -/
theorem out_last (c : Dev nD) (i : grid0.Coords) (a3 : Memref sig .tc .vmem S512x1024 .f32) (h3 : a3.IsWhole)
    (a4 : Memref sig .tc .vmem S1024x1024 .f32) (h4 : a4.IsWhole) (a5 : Memref sig .tc .vmem S512x1024 .f32) (h5 : a5.IsWhole)
    (a6 : Memref sig .tc .vmem S512x1024 .f32) (h6 : a6.IsWhole) (hc0 : ¬cond0_0 i) (hc1 : cond0_1 i)
    (x0 : Vec F S512x1024 .f32) (x1 : Vec F S1024x1024 .f32) (xs0 : Vec F S512x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero origin]
  simp only [View.readCov_unit_zero (S := S512x1024) _ origin, View.readAt_eq_ld, h3.read_unread, h4.read_unread,
    h6.read_unread, View.ld_unit_zero (S := S512x1024) origin, View.ld_unit_zero (S := S1024x1024) origin]

end Cert.KernelIdeal.StepValues

end
-- ==== Proof.Accumulated.lean ====
/-
  The accumulator after the four K-steps of one output block, at the ideal instance.

  At the ideal instance one K-step at an entry (p, q) of the 512×1024 block is
      acc[p, q] + ∑ l < 1024, a[p, l] · b[l, q]
  (narrowing to bf16 is the identity there, and the matrix unit's product into a zero accumulator is the plain sum),
  and the reset value is 0. The grid runs the four K-steps of an output block at consecutive points
  4q, 4q + 1, 4q + 2, 4q + 3; the accumulator after each point is the fold of the steps since the last reset, so
  after point 4q + 3 it holds
      0 + ∑ s < 4, (block product of point 4q + s),
  and the output block stored at that point is a copy of it.
-/
import proofs.«117883_j23708219474208_1_alg».proof.Proof.Gen.KernelIdeal.Value
import proofs.«117883_j23708219474208_1_alg».proof.Proof.StepValues
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Accumulated

open Cert.KernelIdeal Cert.KernelIdeal.Gen Cert.KernelIdeal.Value

/-! ## One K-step at an entry -/

/-- The left operand of the block product is read at (row of the entry, contraction position): its row axis is the
    product's free axis, -/
theorem lhs_axis0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- its column axis the contracted one; -/
theorem lhs_axis1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- the right operand's row axis is the contracted one, -/
theorem rhs_axis0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- and its column axis the entry's column. -/
theorem rhs_axis1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a 512×1024 block with a 1024×1024 block, entry by entry. -/
def blockProd (a : Vec Ideal S512x1024 .f32) (b : Vec Ideal S1024x1024 .f32) : S512x1024.Idx → EReal :=
  fun j => ∑ l : Fin 1024, a (ix2 (j 0) l) * b (ix2 l (j 1))

/-- One K-step at an entry: what the accumulator held plus the entry of the two blocks' product. -/
theorem step_apply (a : Vec Ideal S512x1024 .f32) (b : Vec Ideal S1024x1024 .f32) (acc : Vec Ideal S512x1024 .f32)
    (j : S512x1024.Idx) : k0_pay2 (F := Ideal) a b acc j = acc j + blockProd a b j := by
  unfold k0_pay2
  rw [shapeCast_self, addf_apply]
  refine congrArg (acc j + ·) ((Ideal.matmul_constant_zero_apply dot_S512x1024_S1024x1024_S512x1024_1_0_0_1_n_n none _ _ j).trans ?_)
  unfold blockProd
  rw [← Equiv.sum_comp (contrEquiv1 dot_S512x1024_S1024x1024_S512x1024_1_0_0_1_n_n 1024 rfl rfl).symm]
  refine Finset.sum_congr rfl fun l _ => ?_
  have hl := contrEquiv1_symm_val dot_S512x1024_S1024x1024_S512x1024_1_0_0_1_n_n 1024 rfl rfl l
  have el : dot_S512x1024_S1024x1024_S512x1024_1_0_0_1_n_n.lhsIdx j ((contrEquiv1 dot_S512x1024_S1024x1024_S512x1024_1_0_0_1_n_n 1024 rfl rfl).symm l) = ix2 (j 0) l := funext fun d => Fin.ext (by
    match d with
    | ⟨0, _⟩ => exact lhs_axis0 _ _
    | ⟨1, _⟩ => exact (lhs_axis1 _ _).trans hl)
  have er : dot_S512x1024_S1024x1024_S512x1024_1_0_0_1_n_n.rhsIdx j ((contrEquiv1 dot_S512x1024_S1024x1024_S512x1024_1_0_0_1_n_n 1024 rfl rfl).symm l) = ix2 l (j 1) := funext fun d => Fin.ext (by
    match d with
    | ⟨0, _⟩ => exact (rhs_axis0 _ _).trans hl
    | ⟨1, _⟩ => exact rhs_axis1 _ _)
  rw [truncf_apply, truncf_apply, el, er]
  rfl

/-- The reset value is the zero block. -/
theorem reset_apply (j : S512x1024.Idx) : (k0_pay1 (F := Ideal)) j = 0 := by
  unfold k0_pay1
  rw [shapeCast_self]
  show Ideal.ofBits .f32 0x00000000#32 = 0
  exact Ideal.ofBits_zero_f32

/-! ## The four K-steps of one output block -/

variable (m : (ℓ : Loc nD τ sig) → Buf (Elt Ideal) ℓ)

/-- The block of x the body multiplies at point `t`, and the block of r. -/
abbrev ablk (c : Dev nD) (t : Fin cfg0.N) : Vec Ideal S512x1024 .f32 := iblk m c 0 t
abbrev bblk (c : Dev nD) (t : Fin cfg0.N) : Vec Ideal S1024x1024 .f32 := iblk m c 1 t

/-- What the step at point `n` adds to the accumulator: the product of the point's two blocks (zero past the grid,
    where it is never used). -/
def addend (c : Dev nD) (n : ℕ) : S512x1024.Idx → EReal :=
  if h : n < cfg0.N then blockProd (ablk m c ⟨n, h⟩) (bblk m c ⟨n, h⟩) else fun _ => 0

theorem addend_of_lt (c : Dev nD) (n : ℕ) (h : n < cfg0.N) :
    addend m c n = blockProd (ablk m c ⟨n, h⟩) (bblk m c ⟨n, h⟩) := dif_pos h

/-- At a point that starts an output block (a multiple of 4) the accumulator is left at the step over the zero block,
    whatever it held. -/
theorem scratch_first (c : Dev nD) (n : ℕ) (hb : n < cfg0.N) (h0 : n % 4 = 0) (acc : Vec Ideal S512x1024 .f32) :
    scAt0_0 m c n hb acc = k0_pay2 (ablk m c ⟨n, hb⟩) (bblk m c ⟨n, hb⟩) (k0_pay1 (F := Ideal)) := by
  have h1 : ¬n % 4 = 3 := by omega
  unfold scAt0_0
  rw [dif_pos h0, dif_neg h1]
  exact StepValues.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (ablk m c ⟨n, hb⟩) (bblk m c ⟨n, hb⟩)

/-- At every other point it is left at the step over what it held. -/
theorem scratch_later (c : Dev nD) (n : ℕ) (hb : n < cfg0.N) (h0 : ¬n % 4 = 0) (acc : Vec Ideal S512x1024 .f32) :
    scAt0_0 m c n hb acc = k0_pay2 (ablk m c ⟨n, hb⟩) (bblk m c ⟨n, hb⟩) acc := by
  unfold scAt0_0
  rw [dif_neg h0]
  by_cases h1 : n % 4 = 3
  · rw [dif_pos h1]
    exact StepValues.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (ablk m c ⟨n, hb⟩) (bblk m c ⟨n, hb⟩) acc
  · rw [dif_neg h1]
    exact StepValues.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (ablk m c ⟨n, hb⟩) (bblk m c ⟨n, hb⟩) acc

/-- THE ACCUMULATOR AFTER THE LAST K-STEP of an output block (a point ≡ 3 mod 4): zero plus the four block products
    of the block's points `4·(t/4) … 4·(t/4) + 3`. -/
theorem acc_after_last (c : Dev nD) (t : Fin cfg0.N) (h3 : t.val % 4 = 3) (j : S512x1024.Idx) :
    (outsAt0 m c t.val t.isLt).2 j = 0 + ∑ s ∈ Finset.range 4, addend m c (4 * (t.val / 4) + s) j := by
  have hN : t.val < 256 := lt_of_lt_of_eq t.isLt (show cfg0.N = 256 from N_0)
  rw [soutsAt0_0_eq m c t]
  have key := Pipeline.accAt_add_apply (N := cfg0.N) (ι := S512x1024.Idx) (β := EReal)
    (fun n h => scAt0_0 m c n h (VS0_0.read (Elt Ideal) VS0_0.junk)) (scAt0_0 m c) (fun _ => 0) (addend m c)
    (4 * (t.val / 4)) 3
    (fun h i => by
      show scAt0_0 m c (4 * (t.val / 4)) h (VS0_0.read (Elt Ideal) VS0_0.junk) i = 0 + addend m c (4 * (t.val / 4)) i
      rw [scratch_first m c _ h (by omega), step_apply, reset_apply, addend_of_lt m c _ h])
    (fun n h acc i hlo hhi => by
      rw [scratch_later m c n h (by omega), step_apply, addend_of_lt m c n h])
    (t.val % 4) (by omega) (by omega) j
  rw [key, h3]

/-- The output block stored at that point is the accumulator's contents there. -/
theorem out_eq_acc_at_last (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (StepValues.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).trans
    (StepValues.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).symm

end Cert.KernelIdeal.Accumulated

end
-- ==== Proof.ProductSlabs.lean ====
/-
  The matrix product and its four K-slabs.

  For x : 8192×4096 and r : 4096×4096 over the extended reals, the product's entry (b, o) is
  `∑ k < 4096, x[b, k] · r[k, o]`. Cutting the contraction axis into four slabs of 1024,
  slab `s` contributes `∑ l < 1024, x[b, 1024 s + l] · r[1024 s + l, o]`, and the product is the sum of its
  four slabs. This needs only that addition is commutative and associative (a sum over `Fin 4096` re-indexed
  through `Fin 4 × Fin 1024`), so it holds on the extended reals with no finiteness hypothesis.
-/
import Idealize.ShloMosaic.Lib.ValueIdx

noncomputable section

open scoped BigOperators

namespace Cert.ProductSlabs

open Idealize.ShloMosaic Idealize.ShloMosaic.ValueIdx

/-- A sum over `Fin 4096` is the sum, over the four slabs, of the sums over each slab's 1024 positions. -/
theorem sum_eq_sum_slabs {β : Type*} [AddCommMonoid β] (f : Fin 4096 → β) :
    ∑ k : Fin 4096, f k
      = ∑ s : Fin 4, ∑ l : Fin 1024, f ⟨1024 * s.val + l.val, by have := s.isLt; have := l.isLt; omega⟩ := by
  have e : ∑ k : Fin 4096, f k = ∑ p : Fin 4 × Fin 1024, f (finProdFinEquiv p) :=
    (Equiv.sum_comp (finProdFinEquiv (m := 4) (n := 1024)) f).symm
  rw [e, Fintype.sum_prod_type]
  refine Finset.sum_congr rfl fun s _ => Finset.sum_congr rfl fun l _ => congrArg f (Fin.ext ?_)
  show l.val + 1024 * s.val = 1024 * s.val + l.val
  omega

/-- The product `x · r`, entry by entry. -/
def matProd (x : (⟨2, ![8192, 4096]⟩ : Shape).Idx → EReal) (r : (⟨2, ![4096, 4096]⟩ : Shape).Idx → EReal) :
    (⟨2, ![8192, 4096]⟩ : Shape).Idx → EReal :=
  fun i => ∑ k : Fin 4096, x (ix2 (i 0) k) * r (ix2 k (i 1))

/-- Slab `s` of the product's entry `i`: columns `1024 s … 1024 s + 1023` of `x`'s row against the same rows of
    `r`'s column. -/
def slab (x : (⟨2, ![8192, 4096]⟩ : Shape).Idx → EReal) (r : (⟨2, ![4096, 4096]⟩ : Shape).Idx → EReal) (s : Fin 4)
    (i : (⟨2, ![8192, 4096]⟩ : Shape).Idx) : EReal :=
  ∑ l : Fin 1024,
    x (ix2 (i 0) (⟨1024 * s.val + l.val, by have := s.isLt; have := l.isLt; omega⟩ : Fin 4096))
      * r (ix2 (⟨1024 * s.val + l.val, by have := s.isLt; have := l.isLt; omega⟩ : Fin 4096) (i 1))

/-- The product is zero plus the sum of its four slabs (the zero is the accumulator's reset value). -/
theorem matProd_eq_slabs (x : (⟨2, ![8192, 4096]⟩ : Shape).Idx → EReal) (r : (⟨2, ![4096, 4096]⟩ : Shape).Idx → EReal)
    (i : (⟨2, ![8192, 4096]⟩ : Shape).Idx) :
    matProd x r i = 0 + ∑ s : Fin 4, slab x r s i := by
  rw [zero_add]
  exact sum_eq_sum_slabs fun k => x (ix2 (i 0) k) * r (ix2 k (i 1))

end Cert.ProductSlabs

end
-- ==== Proof.OutputArray.lean ====
/-
  The kernel's result array is the matrix product.

  Grid point `t` (of 256, in row-major order over (i, j, k) with extents (16, 4, 4)) multiplies the block of x at
  block-row `t / 16`, block-column `t % 4` with the block of r at block-row `t % 4`, block-column `(t / 4) % 4`,
  and at the points with `t % 4 = 3` writes the output block at block-row `t / 16`, block-column `(t / 4) % 4`.
  The four points `4·(t/4) + s`, `s < 4`, share the output block and their block products are the four K-slabs
  of the product's entries in that block; so what a flushing point writes back is the product restricted to its
  block, and since the 16 × 4 output blocks tile the 8192×4096 array, the array ends holding the product.
-/
import proofs.«117883_j23708219474208_1_alg».proof.Proof.Accumulated
import proofs.«117883_j23708219474208_1_alg».proof.Proof.ProductSlabs

noncomputable section

open scoped BigOperators
open Idealize.ShloMosaic Idealize.ShloMosaic.TcCoe Idealize.SL.Sem Idealize.ShloMosaic.ValueIdx
open Idealize.ShloMosaic.Pipeline (Dat)

namespace Cert.KernelIdeal.OutputArray

open Cert.KernelIdeal Cert.KernelIdeal.Gen Cert.KernelIdeal.Value Cert.KernelIdeal.Accumulated Cert.ProductSlabs

variable (m : (ℓ : Loc nD τ sig) → Buf (Elt Ideal) ℓ) (ρ : Dev nD → PrngReg)

/-- The two argument arrays as launched. -/
abbrev xarr (c : Dev nD) : S8192x4096.Idx → EReal := m ((c : Thread nD τ).loc main_arg0)
abbrev rarr (c : Dev nD) : S4096x4096.Idx → EReal := m ((c : Thread nD τ).loc main_arg1)

/-- Which block of each array a grid point touches, in closed form (decided over the 256 points). -/
theorem block_indices : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = (t.val / 4) % 4
    ∧ win0_2.index t (0 : Fin 2) = t.val / 16 ∧ win0_2.index t (1 : Fin 2) = (t.val / 4) % 4 :=
  (by decide +kernel : ∀ t : Fin grid0.N, _)

/-- The x block of point `t` at (p, l) is x at row `512·(t/16) + p`, column `1024·(t%4) + l`. -/
theorem ablk_apply (c : Dev nD) (t : Fin cfg0.N) (p : Fin 512) (l : Fin 1024) (i : S8192x4096.Idx)
    (hi0 : (i 0).val = 512 * (t.val / 16) + p.val) (hi1 : (i 1).val = 1024 * (t.val % 4) + l.val) :
    ablk m c t (ix2 p l) = xarr m c i := by
  obtain ⟨e00, e01, -, -, -, -⟩ := block_indices t
  show ((cfg0.win 0).blk t).view.read (Elt Ideal) (V m c (Pipeline.arrRef spec0 0)) (ix2 p l) = _
  rw [View.read_apply]
  show V m c main_arg0 (((cfg0.win 0).blk t).view.emb (ix2 p l)) = m ((c : Thread nD τ).loc main_arg0) i
  unfold V
  congr 1
  funext a
  apply Fin.ext
  match a with
  | ⟨0, _⟩ => show win0_0.index t (0 : Fin 2) * 512 + 1 * p.val = (i 0).val; rw [e00, hi0]; omega
  | ⟨1, _⟩ => show win0_0.index t (1 : Fin 2) * 1024 + 1 * l.val = (i 1).val; rw [e01, hi1]; omega

/-- The r block of point `t` at (l, q) is r at row `1024·(t%4) + l`, column `1024·((t/4)%4) + q`. -/
theorem bblk_apply (c : Dev nD) (t : Fin cfg0.N) (l : Fin 1024) (q : Fin 1024) (i : S4096x4096.Idx)
    (hi0 : (i 0).val = 1024 * (t.val % 4) + l.val) (hi1 : (i 1).val = 1024 * ((t.val / 4) % 4) + q.val) :
    bblk m c t (ix2 l q) = rarr m c i := by
  obtain ⟨-, -, e10, e11, -, -⟩ := block_indices t
  show ((cfg0.win 1).blk t).view.read (Elt Ideal) (V m c (Pipeline.arrRef spec0 1)) (ix2 l q) = _
  rw [View.read_apply]
  show V m c main_arg1 (((cfg0.win 1).blk t).view.emb (ix2 l q)) = m ((c : Thread nD τ).loc main_arg1) i
  unfold V
  congr 1
  funext a
  apply Fin.ext
  match a with
  | ⟨0, _⟩ => show win0_1.index t (0 : Fin 2) * 1024 + 1 * l.val = (i 0).val; rw [e10, hi0]; omega
  | ⟨1, _⟩ => show win0_1.index t (1 : Fin 2) * 1024 + 1 * q.val = (i 1).val; rw [e11, hi1]; omega

/-- The block product of the `s`-th of an output block's four points, at entry (p, q) of the block, is slab `s` of
    the product at the array entry the block places (p, q) at. -/
theorem addend_eq_slab (c : Dev nD) (t : Fin cfg0.N) (s : Fin 4) (p : Fin 512) (q : Fin 1024) (i : S8192x4096.Idx)
    (hi0 : (i 0).val = 512 * (t.val / 16) + p.val) (hi1 : (i 1).val = 1024 * ((t.val / 4) % 4) + q.val) :
    addend m c (4 * (t.val / 4) + s.val) (ix2 p q) = slab (xarr m c) (rarr m c) s i := by
  have hN : t.val < 256 := lt_of_lt_of_eq t.isLt (show cfg0.N = 256 from N_0)
  have hs : s.val < 4 := s.isLt
  have hn : 4 * (t.val / 4) + s.val < cfg0.N :=
    lt_of_lt_of_eq (by omega : 4 * (t.val / 4) + s.val < 256) (show cfg0.N = 256 from N_0).symm
  rw [addend_of_lt m c _ hn]
  unfold blockProd slab
  refine Finset.sum_congr rfl fun l _ => ?_
  have hl : l.val < 1024 := l.isLt
  rw [ablk_apply m c ⟨4 * (t.val / 4) + s.val, hn⟩ p l
        (ix2 (i 0) (⟨1024 * s.val + l.val, by omega⟩ : Fin 4096))
        (by show (i 0).val = 512 * ((4 * (t.val / 4) + s.val) / 16) + p.val; rw [hi0]; omega)
        (by show 1024 * s.val + l.val = 1024 * ((4 * (t.val / 4) + s.val) % 4) + l.val; omega),
      bblk_apply m c ⟨4 * (t.val / 4) + s.val, hn⟩ l q
        (ix2 (⟨1024 * s.val + l.val, by omega⟩ : Fin 4096) (i 1))
        (by show 1024 * s.val + l.val = 1024 * ((4 * (t.val / 4) + s.val) % 4) + l.val; omega)
        (by show (i 1).val = 1024 * (((4 * (t.val / 4) + s.val) / 4) % 4) + q.val; rw [hi1]; omega)]

/-- WHAT A FLUSHING POINT WRITES BACK is its block of the product of the two argument arrays. -/
theorem flushed_eq (c : Dev nD) (t : Fin cfg0.N) (hf : (cfg0.win 2).flush t = true) :
    (dats m 0 c).flushed 2 t = ((cfg0.win 2).blk t).view.read (Elt Ideal) (matProd (xarr m c) (rarr m c)) := by
  have h3 : t.val % 4 = 3 := (flush0_2 t).mp hf
  obtain ⟨-, -, -, -, e20, e21⟩ := block_indices t
  rw [flushed2, out_eq_acc_at_last m c t h3]
  funext j
  obtain ⟨p, q, rfl⟩ : ∃ (p : Fin 512) (q : Fin 1024), j = ix2 p q := ⟨j 0, j 1, eq_ix2 j⟩
  show (outsAt0 m c t.val t.isLt).2 (ix2 p q) = matProd (xarr m c) (rarr m c) (((cfg0.win 2).blk t).view.emb (ix2 p q))
  rw [acc_after_last m c t h3, matProd_eq_slabs, Finset.sum_range]
  refine congrArg (0 + ·) (Finset.sum_congr rfl fun s _ => ?_)
  exact addend_eq_slab m c t s p q _
    (by show win0_2.index t (0 : Fin 2) * 512 + 1 * p.val = _; rw [e20]; omega)
    (by show win0_2.index t (1 : Fin 2) * 1024 + 1 * q.val = _; rw [e21]; omega)

/-- An entry of the array is in point `t`'s output block iff each coordinate is in the block's range. -/
theorem mem_out_block (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every entry (b, o) is in the block written back at the last K-step of block-row `b / 512`, block-column `o / 1024`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  refine ⟨⟨16 * ((i 0).val / 512) + 4 * ((i 1).val / 1024) + 3, by rw [hN]; omega⟩, (flush0_2 _).mpr (by show (16 * ((i 0).val / 512) + 4 * ((i 1).val / 1024) + 3) % 4 = 3; omega), ?_⟩
  obtain ⟨-, -, -, -, e20, e21⟩ := block_indices ⟨16 * ((i 0).val / 512) + 4 * ((i 1).val / 1024) + 3, by rw [hN]; omega⟩
  rw [mem_out_block]
  intro a
  match a with
  | ⟨0, _⟩ =>
    show win0_2.index _ (0 : Fin 2) * 512 ≤ (i 0).val ∧ (i 0).val < win0_2.index _ (0 : Fin 2) * 512 + 512
    rw [e20]
    show (16 * ((i 0).val / 512) + 4 * ((i 1).val / 1024) + 3) / 16 * 512 ≤ (i 0).val ∧ (i 0).val < (16 * ((i 0).val / 512) + 4 * ((i 1).val / 1024) + 3) / 16 * 512 + 512
    omega
  | ⟨1, _⟩ =>
    show win0_2.index _ (1 : Fin 2) * 1024 ≤ (i 1).val ∧ (i 1).val < win0_2.index _ (1 : Fin 2) * 1024 + 1024
    rw [e21]
    show (16 * ((i 0).val / 512) + 4 * ((i 1).val / 1024) + 3) / 4 % 4 * 1024 ≤ (i 1).val ∧ (i 1).val < (16 * ((i 0).val / 512) + 4 * ((i 1).val / 1024) + 3) / 4 % 4 * 1024 + 1024
    omega

/-- THE ARRAY after the run: the product of the two argument arrays. -/
theorem final (c : Dev nD) : (dats m 0 c).arrAt 2 cfg0.N = matProd (xarr m c) (rarr m c) :=
  (dats m 0 c).arrAt_eq_of_cover 2 (matProd (xarr m c) (rarr m c)) (flushed_eq m c) covered

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = matProd (xarr m c) (rarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.OutputArray

end
-- ==== Proof.ReferenceProduct.lean ====
/-
  The reference computes the matrix product.

  The reference program is one `dot_general` contracting x's second axis with r's first. Read at an index at the
  ideal instance (the generated read-at-an-index lemma) its entry (b, o) is `∑ k < 4096, x[b, k] · r[k, o]`: the
  product of `ProductSlabs`, once the operands' index functions are identified with coordinates.
-/
import proofs.«117883_j23708219474208_1_alg».proof.Proof.Gen.ReferenceIdeal.Read
import proofs.«117883_j23708219474208_1_alg».proof.Proof.ProductSlabs

noncomputable section

open scoped BigOperators

namespace Cert.ReferenceIdeal.Product

open Cert.ReferenceIdeal Cert.ReferenceIdeal.Gen Cert.ReferenceIdeal.Read
open Idealize.ShloMosaic Idealize.ShloMosaic.ValueIdx Cert.ProductSlabs

/-- The left operand is read at (row of the output, contraction position), -/
theorem left_index (i : S8192x4096.Idx) (k : Fin 4096) : lidx_main_v0 i k = ix2 (i 0) k :=
  funext fun a => Fin.ext (by match a with | ⟨0, _⟩ => rfl | ⟨1, _⟩ => rfl)

/-- and the right operand at (contraction position, column of the output). -/
theorem right_index (i : S8192x4096.Idx) (k : Fin 4096) : ridx_main_v0 i k = ix2 k (i 1) :=
  funext fun a => Fin.ext (by match a with | ⟨0, _⟩ => rfl | ⟨1, _⟩ => rfl)

/-- The reference's result is the product of its two arguments. -/
theorem result_eq_matProd (x : (⟨S8192x4096, .f32⟩ : BufTy).Contents (Elt Ideal))
    (r : (⟨S4096x4096, .f32⟩ : BufTy).Contents (Elt Ideal)) :
    val_main_v0 (F := Ideal) x r = matProd x r := by
  funext i
  rw [val_main_v0_apply]
  unfold matProd
  refine Finset.sum_congr rfl fun k _ => ?_
  rw [left_index, right_index]
  rfl

end Cert.ReferenceIdeal.Product

end
-- ==== Proof.lean ====
/-
  A K-blocked matrix product against `einsum("bi,io->bo")`: both compute x · r over the extended reals.

  The kernel tiles out = x · r (x : 8192×4096, r : 4096×4096) into 16 × 4 output blocks of 512×1024 and, for each,
  runs four K-steps over slabs of 1024 of the contraction axis: the first resets a 512×1024 accumulator to zero,
  every step adds the product of the step's x block and r block (narrowed to bf16, which is the identity on
  extended reals), and the last copies the accumulator to the output block. So entry (b, o) ends as
      0 + ∑ s < 4, ∑ l < 1024, x[b, 1024 s + l] · r[1024 s + l, o].
  The reference is one `dot_general`: entry (b, o) is ∑ k < 4096, x[b, k] · r[k, o]. The two agree because a sum
  over 4096 positions is the sum of its four slabs of 1024 (addition on the extended reals is commutative and
  associative; nothing here needs the inputs finite).

  Modules: `ProductSlabs` (the product and its four slabs, pure algebra), `StepValues` (what each control case of
  the body leaves in the accumulator and the output block), `Accumulated` (the accumulator after a block's last
  K-step is zero plus the four block products), `OutputArray` (the blocks written back tile the array with the
  product; the kernel's run with its result so named), `ReferenceProduct` (the reference's result is the product).
  The three frames are the programs' runs with the results dropped; the idealization rewrote nothing.
-/
import proofs.«117883_j23708219474208_1_alg».proof.Defs
import proofs.«117883_j23708219474208_1_alg».proof.Proof.Gen.Kernel
import proofs.«117883_j23708219474208_1_alg».proof.Proof.Gen.Kernel.Skeleton
import proofs.«117883_j23708219474208_1_alg».proof.Proof.Gen.Kernel.Launch
import proofs.«117883_j23708219474208_1_alg».proof.Proof.Gen.Kernel.Points
import proofs.«117883_j23708219474208_1_alg».proof.Proof.Gen.Kernel.Frame
import proofs.«117883_j23708219474208_1_alg».proof.Proof.Gen.KernelIdeal
import proofs.«117883_j23708219474208_1_alg».proof.Proof.Gen.KernelIdeal.Skeleton
import proofs.«117883_j23708219474208_1_alg».proof.Proof.Gen.KernelIdeal.Launch
import proofs.«117883_j23708219474208_1_alg».proof.Proof.Gen.KernelIdeal.Points
import proofs.«117883_j23708219474208_1_alg».proof.Proof.Gen.KernelIdeal.Frame
import proofs.«117883_j23708219474208_1_alg».proof.Proof.Gen.ReferenceIdeal
import proofs.«117883_j23708219474208_1_alg».proof.Proof.Gen.Pre_finite_inputs
import proofs.«117883_j23708219474208_1_alg».proof.Proof.Gen.KernelIdeal.Value
import proofs.«117883_j23708219474208_1_alg».proof.Proof.Gen.ReferenceIdeal.Run
import proofs.«117883_j23708219474208_1_alg».proof.Proof.Gen.ReferenceIdeal.Read
import proofs.«117883_j23708219474208_1_alg».proof.Proof.OutputArray
import proofs.«117883_j23708219474208_1_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and r, the kernel ends with the product x · r in its result array (the blocks it
    writes back tile the array with the product) and the reference with its `dot_general`, which is the same product. -/
theorem algebraic : Cert.algebraic_KernelIdeal_ReferenceIdeal := by
  intro m ρ m' ρ' _ hagree
  refine ⟨fun c => Cert.ProductSlabs.matProd (Cert.KernelIdeal.OutputArray.xarr m c) (Cert.KernelIdeal.OutputArray.rarr m c),
    Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq, Cert.ReferenceIdeal.Product.result_eq_matProd]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
